-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S256x256 : Shape := ⟨2, ![256, 256]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S256x256 1) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x256 : Shape := ⟨2, ![256, 256]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩
abbrev S64x32 : Shape := ⟨2, ![64, 32]⟩
abbrev S64x32x1 : Shape := ⟨3, ![64, 32, 1]⟩
abbrev S64x32x16 : Shape := ⟨3, ![64, 32, 16]⟩
abbrev S64x512 : Shape := ⟨2, ![64, 512]⟩
abbrev S64x1x512 : Shape := ⟨3, ![64, 1, 512]⟩
abbrev S64x16x512 : Shape := ⟨3, ![64, 16, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S256x256, .i1⟩
  | .hbm, ⟨4, _⟩ => ⟨S256x256, .f32⟩
  | .hbm, ⟨5, _⟩ => ⟨S1x4096, .f32⟩
  | .hbm, ⟨6, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S256x256, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg1 : BitVec 32 := BitVec.ofNat 32 (i 1).val
  let c64_i32 : BitVec 32 := 64#32
  let v3 : BitVec 32 := Scalar.muli arg1 c64_i32
  v3
def k0_mult2 (i : grid0.Coords) : BitVec 32 :=
  let arg2 : BitVec 32 := BitVec.ofNat 32 (i 2).val
  let c32_i32 : BitVec 32 := 32#32
  let v5 : BitVec 32 := Scalar.muli arg2 c32_i32
  v5
def k0_off1 (i : grid0.Coords) : Fin 2 → Nat :=
  let arg1 : BitVec 32 := BitVec.ofNat 32 (i 1).val
  let c64_i32 : BitVec 32 := 64#32
  let v3 : BitVec 32 := Scalar.muli arg1 c64_i32
  let v4 : BitVec 32 := v3
  let v7 : Index := Scalar.indexCast v4
  let arg2 : BitVec 32 := BitVec.ofNat 32 (i 2).val
  let c32_i32 : BitVec 32 := 32#32
  let v5 : BitVec 32 := Scalar.muli arg2 c32_i32
  let v6 : BitVec 32 := v5
  let v8 : Index := Scalar.indexCast v6
  ![v7.toNat, v8.toNat]
def k0_cond2 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_9 : BitVec 32 := 0#32
  let v32 : BitVec 1 := Scalar.cmpi .ne v31 c0_i32_9
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S64x32 : 0 < S64x32.numel
  shapeCasts_S64x32_S64x32 : S64x32.ShapeCasts S64x32
  shapeCasts_S64x32_S64x32x1 : S64x32.ShapeCasts S64x32x1
  broadcasts_S64x32x1_S64x32x16 : S64x32x1.Broadcasts S64x32x16
  shapeCasts_S64x32x16_S64x512 : S64x32x16.ShapeCasts S64x512
  shapeCasts_S64x512_S64x1x512 : S64x512.ShapeCasts S64x1x512
  broadcasts_S64x1x512_S64x16x512 : S64x1x512.Broadcasts S64x16x512
  shapeCasts_S64x16x512_S1024x512 : S64x16x512.ShapeCasts S1024x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, 64 ∣ (k0_mult1 i).toNat
  k0_mult2_dvd : ∀ i : grid0.Coords, 32 ∣ (k0_mult2 i).toNat
  k0_off1_inb : ∀ i : grid0.Coords, ∀ a, (k0_off1 i) a + S64x32.size a ≤ S256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S256x256 : Shape := ⟨2, ![256, 256]⟩
abbrev S256x16x256 : Shape := ⟨3, ![256, 16, 256]⟩
abbrev S4096x256 : Shape := ⟨2, ![4096, 256]⟩
abbrev S4096x256x16 : Shape := ⟨3, ![4096, 256, 16]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S256x256, .i1⟩
  | .hbm, ⟨4, _⟩ => ⟨S256x16x256, .i1⟩
  | .hbm, ⟨5, _⟩ => ⟨S4096x256, .i1⟩
  | .hbm, ⟨6, _⟩ => ⟨S4096x256x16, .i1⟩
  | .hbm, ⟨7, _⟩ => ⟨S4096x4096, .i1⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  bcast_S256x256_S256x16x256_0_2 : S256x256.BroadcastsInDim S256x16x256 (![0, 2] : Fin 2 → Fin S256x16x256.rank)
  shapeCasts_S256x16x256_S4096x256 : S256x16x256.ShapeCasts S4096x256
  bcast_S4096x256_S4096x256x16_0_1 : S4096x256.BroadcastsInDim S4096x256x16 (![0, 1] : Fin 2 → Fin S4096x256x16.rank)
  shapeCasts_S4096x256x16_S4096x4096 : S4096x256x16.ShapeCasts S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.CasePieces.lean ====
/-
  What each control case of the body leaves behind, as terms over the blocks the point was given.

  The grid's last axis walks the contraction in 8 stretches. On the first stretch the body clears the running total and
  then adds the stretch's product; on the middle stretches it adds the product to what the point before left; on the last
  stretch it does the same and then stores the total plus the bias row into the output block. The mask tile a point uses is
  the [64, 32] window of the mask array at the offsets the body computes from the grid coordinates.
-/
import proofs.«124412_j77730318123392_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- The origin, as the offsets of a whole-block access. -/
theorem origin2 : (![0, 0] : Fin 2 → Nat) = fun _ => 0 := by
  funext a; fin_cases a <;> rfl

/-- The [64, 32] tile of the mask array that the body loads at grid coordinates `i`. -/
abbrev maskTile (i : grid0.Coords) (mask : Vec F S256x256 .f32) : Vec F S64x32 .f32 :=
  View.ld mask (Rect.unit (k0_off1 i) S64x32.size (k0_off1_inb i))

/-- First stretch: the running total is the stretch's product added to the zero fill. -/
theorem total_first (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S256x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : cond0_0 i) (hc1 : ¬cond0_1 i) (x0 : Vec F S1024x512 .f32) (x1 : Vec F S1024x512 .f32) (x2 : Vec F S256x256 .f32) (x3 : Vec F S1x1024 .f32) :
    sout0_A_0 c i arg3 harg3 arg4 harg4 arg5 harg5 arg6 harg6 arg7 harg7 arg8 harg8 hc0 hc1 x0 x1 x2 x3 = k0_pay2 (maskTile i x2) x1 x0 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, harg5.read_unread,
    View.ld_unit_zero (S := S1024x512) origin2]
  rfl

/-- A middle stretch: the running total is the stretch's product added to what the point before left. -/
theorem total_middle (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S256x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : ¬cond0_1 i) (x0 : Vec F S1024x512 .f32) (x1 : Vec F S1024x512 .f32) (x2 : Vec F S256x256 .f32) (x3 : Vec F S1x1024 .f32) (xs0 : Vec F S1024x1024 .f32) :
    sout0_B_0 c i arg3 harg3 arg4 harg4 arg5 harg5 arg6 harg6 arg7 harg7 arg8 harg8 hc0 hc1 x0 x1 x2 x3 xs0 = k0_pay2 (maskTile i x2) x1 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero (S := S1024x1024) origin2]
  simp only [View.readAt_eq_ld, harg3.read_unread, harg4.read_unread, harg5.read_unread, harg8.read_unread,
    View.ld_unit_zero (S := S1024x512) origin2, View.ld_unit_zero (S := S1024x1024) origin2]
  rfl

/-- The last stretch: the running total likewise, -/
theorem total_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S256x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .f32) (x1 : Vec F S1024x512 .f32) (x2 : Vec F S256x256 .f32) (x3 : Vec F S1x1024 .f32) (xs0 : Vec F S1024x1024 .f32) :
    sout0_C_0 c i arg3 harg3 arg4 harg4 arg5 harg5 arg6 harg6 arg7 harg7 arg8 harg8 hc0 hc1 x0 x1 x2 x3 xs0 = k0_pay2 (maskTile i x2) x1 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) origin2]
  simp only [View.readAt_eq_ld, harg3.read_unread, harg4.read_unread, harg5.read_unread, harg8.read_unread,
    View.ld_unit_zero (S := S1024x512) origin2, View.ld_unit_zero (S := S1024x1024) origin2]
  rfl

/-- and the output block is that total plus the bias row. -/
theorem output_last (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S256x256 .f32) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1024x1024 .f32) (harg8 : arg8.IsWhole) (hc0 : ¬cond0_0 i) (hc1 : cond0_1 i) (x0 : Vec F S1024x512 .f32) (x1 : Vec F S1024x512 .f32) (x2 : Vec F S256x256 .f32) (x3 : Vec F S1x1024 .f32) (xs0 : Vec F S1024x1024 .f32) :
    out0_C_4 c i arg3 harg3 arg4 harg4 arg5 harg5 arg6 harg6 arg7 harg7 arg8 harg8 hc0 hc1 x0 x1 x2 x3 xs0 = k0_pay3 (k0_pay2 (maskTile i x2) x1 x0 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero (S := S1024x1024) origin2, View.readCov_unit_zero (S := S1024x1024) _ origin2]
  simp only [View.readAt_eq_ld, harg3.read_unread, harg4.read_unread, harg5.read_unread, harg6.read_unread, harg8.read_unread,
    View.ld_unit_zero (S := S1024x512) origin2, View.ld_unit_zero (S := S1024x1024) origin2, View.ld_unit_zero (S := S1x1024) origin2]
  rfl

end Cert.KernelIdeal.Pieces

end
-- ==== Proof.BodyAtEntry.lean ====
/-
  The kernel body's three stored values, read at one entry at the ideal instance.

  The body keeps a [1024, 1024] running total. It starts the total at zero (first stretch of the contraction axis), adds to
  it the product of the token block with the scaled weight block (every stretch), and on the last stretch stores the total
  plus the bias row. Entry (r, s) of the product is the sum over the 512 positions c of the stretch of

      x(r, c) · (w(s, c) · (1 + μ(s / 16, c / 16))),

  where μ is the [64, 32] tile of the block mask that belongs to the weight block: the body repeats each mask entry 16
  times along the columns and then 16 times along the rows, so entry (s, c) of the repeated scale is entry
  (s / 16, c / 16) of the tile. The two changes of float format are the identity on exact values.
-/
import proofs.«124412_j77730318123392_1_alg».proof.Proof.Gen.KernelIdeal.Skeleton
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.BodyValue

open Cert.KernelIdeal Cert.KernelIdeal.Gen Idealize.ShloMosaic Idealize.ShloMosaic.ValueIdx

/-- Row block of 16 that row `s` of the weight block lies in. -/
abbrev row16 (s : Fin 1024) : Fin 64 := ⟨s.val / 16, by have := s.isLt; omega⟩
/-- Column block of 16 that position `c` of the stretch lies in. -/
abbrev col16 (c : Fin 512) : Fin 32 := ⟨c.val / 16, by have := c.isLt; omega⟩

/-- The zero fill: every entry is 0. -/
theorem zeroFill_apply (j : S1024x1024.Idx) : k0_pay1 (F := Ideal) j = 0 := by
  unfold k0_pay1
  refine (congrFun (shapeCast_self _ _) j).trans ?_
  show Ideal.ofBits .f32 0x00000000#32 = 0
  exact Ideal.ofBits_zero_f32

/-- The repeated scale: entry (s, c) of a [64, 32] tile repeated 16 times along each axis is the tile's entry
    (s / 16, c / 16). -/
theorem repeat16_apply (u : FVec Ideal S64x32 .f32) (s : Fin 1024) (c : Fin 512) :
    (shapeCast S1024x512 (broadcastTo S64x16x512 (shapeCast S64x1x512 (shapeCast S64x512 (broadcastTo S64x32x16
      (shapeCast S64x32x1 u shapeCasts_S64x32_S64x32x1) broadcasts_S64x32x1_S64x32x16) shapeCasts_S64x32x16_S64x512)
      shapeCasts_S64x512_S64x1x512) broadcasts_S64x1x512_S64x16x512) shapeCasts_S64x16x512_S1024x512 : FVec Ideal S1024x512 .f32) (ix2 s c)
      = u (ix2 (row16 s) (col16 c)) := by
  have hs := s.isLt
  have hc := c.isLt
  refine (shapeCast_apply _ shapeCasts_S64x16x512_S1024x512 (ix2 s c)
    (ix3 (row16 s) (⟨s.val % 16, by omega⟩ : Fin 16) c) ?_).trans ?_
  · rw [Shape.rowMajor_val_three, Shape.rowMajor_val_two]
    show (s.val / 16 * 16 + s.val % 16) * 512 + c.val = s.val * 512 + c.val
    omega
  refine (broadcastTo_apply _ broadcasts_S64x1x512_S64x16x512 _ (ix3 (row16 s) (⟨0, by omega⟩ : Fin 1) c) (fun a => ?_)).trans ?_
  · match a with
    | ⟨0, _⟩ => show s.val / 16 = if (64 : Nat) = 1 then 0 else s.val / 16; rw [if_neg (by decide)]
    | ⟨1, _⟩ => show 0 = if (1 : Nat) = 1 then 0 else s.val % 16; rw [if_pos rfl]
    | ⟨2, _⟩ => show c.val = if (512 : Nat) = 1 then 0 else c.val; rw [if_neg (by decide)]
  refine (shapeCast_apply _ shapeCasts_S64x512_S64x1x512 _ (ix2 (row16 s) c) ?_).trans ?_
  · rw [Shape.rowMajor_val_two, Shape.rowMajor_val_three]
    show s.val / 16 * 512 + c.val = (s.val / 16 * 1 + 0) * 512 + c.val
    omega
  refine (shapeCast_apply _ shapeCasts_S64x32x16_S64x512 _
    (ix3 (row16 s) (col16 c) (⟨c.val % 16, by omega⟩ : Fin 16)) ?_).trans ?_
  · rw [Shape.rowMajor_val_three, Shape.rowMajor_val_two]
    show (s.val / 16 * 32 + c.val / 16) * 16 + c.val % 16 = s.val / 16 * 512 + c.val
    omega
  refine (broadcastTo_apply _ broadcasts_S64x32x1_S64x32x16 _ (ix3 (row16 s) (col16 c) (⟨0, by omega⟩ : Fin 1)) (fun a => ?_)).trans ?_
  · match a with
    | ⟨0, _⟩ => show s.val / 16 = if (64 : Nat) = 1 then 0 else s.val / 16; rw [if_neg (by decide)]
    | ⟨1, _⟩ => show c.val / 16 = if (32 : Nat) = 1 then 0 else c.val / 16; rw [if_neg (by decide)]
    | ⟨2, _⟩ => show 0 = if (1 : Nat) = 1 then 0 else c.val % 16; rw [if_pos rfl]
  refine shapeCast_apply _ shapeCasts_S64x32_S64x32x1 _ (ix2 (row16 s) (col16 c)) ?_
  rw [Shape.rowMajor_val_two, Shape.rowMajor_val_three]
  show s.val / 16 * 32 + c.val / 16 = (s.val / 16 * 32 + c.val / 16) * 1 + 0
  omega

/-! The contraction's operand indices: output entry (r, s) at contraction position k reads the token block at (r, k) and
    the weight block at (s, k). -/

theorem lhs_axis0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem lhs_axis1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem rhs_axis0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem rhs_axis1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The block product into the zero accumulator, at entry (r, s): the sum over the stretch's 512 positions. -/
theorem blockProduct_apply (a b : FVec Ideal S1024x512 .bf16) (r s : Fin 1024) :
    (matmul dot_S1024x512_S1024x512_S1024x1024_1_1_0_0_n_n none a b (constant S1024x1024 .f32 0x00000000#32) : FVec Ideal S1024x1024 .f32) (ix2 r s)
      = ∑ c : Fin 512, a (ix2 r c) * b (ix2 s c) := by
  refine (Ideal.matmul_constant_zero_apply dot_S1024x512_S1024x512_S1024x1024_1_1_0_0_n_n none a b (ix2 r s)).trans ?_
  rw [← Equiv.sum_comp (ValueIdx.contrEquiv1 dot_S1024x512_S1024x512_S1024x1024_1_1_0_0_n_n 512 rfl rfl).symm]
  refine Finset.sum_congr rfl fun k _ => ?_
  have hk := ValueIdx.contrEquiv1_symm_val dot_S1024x512_S1024x512_S1024x1024_1_1_0_0_n_n 512 rfl rfl k
  have el : dot_S1024x512_S1024x512_S1024x1024_1_1_0_0_n_n.lhsIdx (ix2 r s) ((ValueIdx.contrEquiv1 dot_S1024x512_S1024x512_S1024x1024_1_1_0_0_n_n 512 rfl rfl).symm k) = ix2 r k := funext fun a => Fin.ext (by
    match a with
    | ⟨0, _⟩ => exact lhs_axis0 _ _
    | ⟨1, _⟩ => exact (lhs_axis1 _ _).trans hk)
  have er : dot_S1024x512_S1024x512_S1024x1024_1_1_0_0_n_n.rhsIdx (ix2 r s) ((ValueIdx.contrEquiv1 dot_S1024x512_S1024x512_S1024x1024_1_1_0_0_n_n 512 rfl rfl).symm k) = ix2 s k := funext fun a => Fin.ext (by
    match a with
    | ⟨0, _⟩ => exact rhs_axis0 _ _
    | ⟨1, _⟩ => exact (rhs_axis1 _ _).trans hk)
  rw [el, er]

/-- The accumulation step at entry (r, s): the running total plus the stretch's product with the scaled weight. -/
theorem accumulate_apply (tile : Vec Ideal S64x32 .f32) (w x : Vec Ideal S1024x512 .f32) (acc : Vec Ideal S1024x1024 .f32)
    (r s : Fin 1024) :
    k0_pay2 (F := Ideal) tile w x acc (ix2 r s)
      = acc (ix2 r s) + ∑ c : Fin 512, x (ix2 r c) * (w (ix2 s c) * (1 + tile (ix2 (row16 s) (col16 c)))) := by
  unfold k0_pay2
  refine (congrFun (shapeCast_self _ _) (ix2 r s)).trans ?_
  refine (addf_apply _ _ _).trans ?_
  refine congrArg (acc (ix2 r s) + ·) ?_
  refine (blockProduct_apply _ _ r s).trans ?_
  refine Finset.sum_congr rfl fun c _ => ?_
  refine (congrArg (x (ix2 r c) * ·) ?_ : x (ix2 r c) * (w (ix2 s c) * _) = _)
  refine congrArg (w (ix2 s c) * ·) ?_
  refine (repeat16_apply _ s c).trans ?_
  refine (addf_apply _ _ _).trans ?_
  refine (congrArg (_ + ·) (congrFun (shapeCast_self tile _) _)).trans ?_
  show Ideal.ofBits .f32 0x3F800000#32 + tile _ = 1 + tile _
  rw [Ideal.ofBits_one_f32]

/-- The last store at entry (r, s): the running total plus the bias row's entry s. -/
theorem addBias_apply (acc : Vec Ideal S1024x1024 .f32) (brow : Vec Ideal S1x1024 .f32) (r s : Fin 1024) :
    k0_pay3 (F := Ideal) acc brow (ix2 r s) = acc (ix2 r s) + brow (ix2 (0 : Fin 1) s) := by
  unfold k0_pay3
  refine (addf_apply _ _ _).trans ?_
  refine congrArg (acc (ix2 r s) + ·) ?_
  refine (broadcastTo_apply _ broadcasts_S1x1024_S1024x1024 (ix2 r s) (ix2 (0 : Fin 1) s) (fun a => ?_)).trans ?_
  · match a with
    | ⟨0, _⟩ => show 0 = if (1 : Nat) = 1 then 0 else r.val; rw [if_pos rfl]
    | ⟨1, _⟩ => show s.val = if (1024 : Nat) = 1 then 0 else s.val; rw [if_neg (by decide)]
  exact congrFun (shapeCast_self brow _) _

end Cert.KernelIdeal.BodyValue

end
-- ==== Proof.SplitLaw.lean ====
/-
  The algebra that joins the two sides, on the extended reals, with no finiteness hypothesis.

  The kernel contracts `x` against the weight scaled entrywise by `1 + μ`, where `μ` is the block mask read as a
  number (0 or 1, in any case nonnegative); the reference contracts `x` against the masked weight `w · μ` and against
  the plain weight `w` separately and adds the two products. Entry by entry

      x · (w · (1 + μ)) = (1 + μ) · (x · w) = x · w + μ · (x · w) = x · (w · μ) + x · w,

  where the middle step distributes a sum of two NONNEGATIVE factors over an arbitrary extended real — the one
  form of distributivity that holds at the infinities too. Addition of extended reals is commutative and associative, so
  the sum of the entries splits into the two sums, the bias moves inside, and a sum over 4096 positions is the sum over 8
  consecutive stretches of 512.
-/
import Mathlib.Data.EReal.Inv
import Mathlib.Algebra.BigOperators.Group.Finset.Basic
import Mathlib.Algebra.BigOperators.Fin
import Mathlib.Logic.Equiv.Fin.Basic

namespace BlockMaskedLinear

open Finset

/-- One entry: scaling the weight by `1 + μ` (`μ ≥ 0`) is adding the masked product to the plain one. -/
theorem entry_split (x w μ : EReal) (hμ : 0 ≤ μ) : x * (w * (1 + μ)) = x * (w * μ) + x * w := by
  have h1 : x * (w * (1 + μ)) = (1 + μ) * (x * w) := (mul_assoc x w (1 + μ)).symm.trans (mul_comm _ _)
  have h2 : x * (w * μ) = μ * (x * w) := (mul_assoc x w μ).symm.trans (mul_comm _ _)
  rw [h1, h2, EReal.right_distrib_of_nonneg zero_le_one hμ, one_mul, add_comm]

/-- A whole row: the contraction against the scaled weight, plus the bias, is the masked contraction plus (the plain
    contraction plus the bias). -/
theorem row_split {ι : Type*} [Fintype ι] (x w μ : ι → EReal) (hμ : ∀ i, 0 ≤ μ i) (b : EReal) :
    (∑ i, x i * (w i * (1 + μ i))) + b = (∑ i, x i * (w i * μ i)) + ((∑ i, x i * w i) + b) := by
  rw [← add_assoc, ← Finset.sum_add_distrib]
  congr 1
  exact Finset.sum_congr rfl fun i _ => entry_split (x i) (w i) (μ i) (hμ i)

/-- Position `c` of stretch `k`, of 8 stretches of 512. -/
def pos (k : Fin 8) (c : Fin 512) : Fin 4096 := ⟨k.val * 512 + c.val, by omega⟩

/-- A sum over 4096 positions, stretch by stretch. -/
theorem sum_stretches {M : Type*} [AddCommMonoid M] (f : Fin 4096 → M) :
    ∑ i, f i = ∑ k : Fin 8, ∑ c : Fin 512, f (pos k c) := by
  rw [← Fintype.sum_prod_type' (f := fun k c => f (pos k c))]
  refine (Fintype.sum_equiv (finProdFinEquiv (m := 8) (n := 512)) _ _ fun p => ?_).symm
  congr 1
  apply Fin.ext
  simp only [finProdFinEquiv_apply_val, pos]
  omega

/-- The stretches taken in order: a running total that starts at zero and adds stretch `0, 1, …, n - 1`. -/
theorem sum_range_stretches {M : Type*} [AddCommMonoid M] (g : ℕ → M) :
    ∑ k : Fin 8, g k.val = ∑ n ∈ Finset.range 8, g n := (Finset.sum_range (fun n => g n)).symm

end BlockMaskedLinear
-- ==== Proof.Spec.lean ====
/-
  The result as ONE function of the four argument arrays, and its two arrangements.

  With x the tokens [8192, 4096], w the weight [4096, 4096], b the bias [4096] and μ the block mask as numbers [256, 256]
  (every entry nonnegative), entry (p, q) of the result is

      Σ over the 8 stretches n, Σ over the 512 positions c of the stretch, of
          x(p, 512 n + c) · (w(q, 512 n + c) · (1 + μ(q / 16, (512 n + c) / 16)))   …   plus b(q),

  the running total started at zero, which is the order the kernel accumulates in. The reference computes
  Σ_i x(p, i) · (w(q, i) · μ(q / 16, i / 16))  +  (Σ_i x(p, i) · w(q, i)  +  b(q)): the same number, by the split of one entry
  and the regrouping of a sum over 4096 positions into 8 stretches of 512.

  Arrays are read at natural-number coordinates (zero outside the array), so that a block's entry is named by plain
  arithmetic on the grid point's number.
-/
import Idealize.ShloMosaic.Lib.ValueIdx
import proofs.«124412_j77730318123392_1_alg».proof.Proof.SplitLaw

noncomputable section

namespace BlockMaskedLinear

open Idealize.ShloMosaic Idealize.ShloMosaic.ValueIdx

/-- A matrix read at natural coordinates, zero outside it. -/
def at2 {n0 n1 : ℕ} (X : (⟨2, ![n0, n1]⟩ : Shape).Idx → EReal) (p q : ℕ) : EReal :=
  if h : p < n0 ∧ q < n1 then X (ix2 ⟨p, h.1⟩ ⟨q, h.2⟩) else 0

theorem at2_ix2 {n0 n1 : ℕ} (X : (⟨2, ![n0, n1]⟩ : Shape).Idx → EReal) (a : Fin n0) (b : Fin n1) :
    at2 X a.val b.val = X (ix2 a b) := by
  unfold at2; rw [dif_pos ⟨a.isLt, b.isLt⟩]

/-- An entry named by its index is the read at that index's coordinates. -/
theorem eq_at2 {n0 n1 : ℕ} (X : (⟨2, ![n0, n1]⟩ : Shape).Idx → EReal) (j : (⟨2, ![n0, n1]⟩ : Shape).Idx) (p q : ℕ)
    (h0 : (j 0).val = p) (h1 : (j 1).val = q) : X j = at2 X p q := by
  subst h0 h1; exact (congrArg X (eq_ix2 j)).trans (at2_ix2 X (j 0) (j 1)).symm

/-- A vector read at a natural coordinate, zero outside it. -/
def at1 {n : ℕ} (B : (⟨1, ![n]⟩ : Shape).Idx → EReal) (q : ℕ) : EReal :=
  if h : q < n then B (ix1 ⟨q, h⟩) else 0

theorem at1_ix1 {n : ℕ} (B : (⟨1, ![n]⟩ : Shape).Idx → EReal) (a : Fin n) : at1 B a.val = B (ix1 a) := by
  unfold at1; rw [dif_pos a.isLt]

theorem eq_at1 {n : ℕ} (B : (⟨1, ![n]⟩ : Shape).Idx → EReal) (j : (⟨1, ![n]⟩ : Shape).Idx) (q : ℕ)
    (h0 : (j 0).val = q) : B j = at1 B q := by
  subst h0; exact (congrArg B (eq_ix1 j)).trans (at1_ix1 B (j 0)).symm

/-- One term of the contraction at row `p` of the tokens, row `q` of the weight, position `i`. -/
def term (X : (⟨2, ![8192, 4096]⟩ : Shape).Idx → EReal) (W : (⟨2, ![4096, 4096]⟩ : Shape).Idx → EReal)
    (μ : (⟨2, ![256, 256]⟩ : Shape).Idx → EReal) (p q i : ℕ) : EReal :=
  at2 X p i * (at2 W q i * (1 + at2 μ (q / 16) (i / 16)))

/-- THE RESULT: the running total from zero over the 8 stretches, plus the bias. -/
def result (X : (⟨2, ![8192, 4096]⟩ : Shape).Idx → EReal) (W : (⟨2, ![4096, 4096]⟩ : Shape).Idx → EReal)
    (B : (⟨1, ![4096]⟩ : Shape).Idx → EReal) (μ : (⟨2, ![256, 256]⟩ : Shape).Idx → EReal) :
    (⟨2, ![8192, 4096]⟩ : Shape).Idx → EReal := fun j =>
  (0 + ∑ n ∈ Finset.range 8, ∑ c : Fin 512, term X W μ (j 0).val (j 1).val (n * 512 + c.val)) + at1 B (j 1).val

/-- The reference's arrangement of the same number: the masked contraction plus (the plain contraction plus the bias). -/
theorem result_eq_two_products (X : (⟨2, ![8192, 4096]⟩ : Shape).Idx → EReal) (W : (⟨2, ![4096, 4096]⟩ : Shape).Idx → EReal)
    (B : (⟨1, ![4096]⟩ : Shape).Idx → EReal) (μ : (⟨2, ![256, 256]⟩ : Shape).Idx → EReal) (hμ : ∀ y, 0 ≤ μ y)
    (j : (⟨2, ![8192, 4096]⟩ : Shape).Idx) :
    result X W B μ j
      = (∑ i : Fin 4096, at2 X (j 0).val i.val * (at2 W (j 1).val i.val * at2 μ ((j 1).val / 16) (i.val / 16)))
        + ((∑ i : Fin 4096, at2 X (j 0).val i.val * at2 W (j 1).val i.val) + at1 B (j 1).val) := by
  have hμ' : ∀ i : Fin 4096, 0 ≤ at2 μ ((j 1).val / 16) (i.val / 16) := fun i => by
    unfold at2; split
    · exact hμ _
    · exact le_refl _
  rw [← row_split (fun i : Fin 4096 => at2 X (j 0).val i.val) (fun i => at2 W (j 1).val i.val)
    (fun i => at2 μ ((j 1).val / 16) (i.val / 16)) hμ' (at1 B (j 1).val)]
  unfold result
  rw [zero_add, sum_stretches, ← sum_range_stretches (fun n => ∑ c : Fin 512, term X W μ (j 0).val (j 1).val (n * 512 + c.val))]
  rfl

end BlockMaskedLinear

end
-- ==== Proof.BlockReads.lean ====
/-
  What each window's block holds at grid point number t, in terms of the argument arrays.

  The grid is 8 × 4 × 8: point t works on token rows 1024·(t / 32) …, weight rows 1024·((t / 8) % 4) …, and the stretch
  512·(t % 8) … of the contraction axis. The mask array the region finds is the block mask converted to numbers, held
  whole; the body takes from it the [64, 32] tile at row 64·((t / 8) % 4), column 32·(t % 8). The bias the region finds is
  the bias vector as one row, of which point t is given columns 1024·((t / 8) % 4) ….
-/
import proofs.«124412_j77730318123392_1_alg».proof.Proof.Gen.KernelIdeal.Frame
import proofs.«124412_j77730318123392_1_alg».proof.Proof.CasePieces
import proofs.«124412_j77730318123392_1_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Cert.KernelIdeal.Pieces BlockMaskedLinear
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The four argument arrays on core `c`, the mask already as numbers. -/
abbrev tokens (c : Dev nD) : Vec Ideal S8192x4096 .f32 := m ((c : Thread nD τ).loc main_arg0)
abbrev weight (c : Dev nD) : Vec Ideal S4096x4096 .f32 := m ((c : Thread nD τ).loc main_arg1)
abbrev biasVec (c : Dev nD) : Vec Ideal S4096 .f32 := m ((c : Thread nD τ).loc main_arg2)
abbrev maskNum (c : Dev nD) : Vec Ideal S256x256 .f32 :=
  (uitofp (F := Ideal) (s := S256x256) (w := 1) .f32 (m ((c : Thread nD τ).loc main_arg3)) : FVec Ideal S256x256 .f32)

/-- A mask entry as a number is never negative. -/
theorem maskNum_nonneg (c : Dev nD) (y : S256x256.Idx) : (0 : EReal) ≤ maskNum m c y := by
  show (0 : EReal) ≤ (((m ((c : Thread nD τ).loc main_arg3) y).toNat : ℝ) : EReal)
  exact_mod_cast Nat.cast_nonneg _

/-- Where each window's block sits at point `t`, decided over the grid. -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = 0
    ∧ win0_3.index t (0 : Fin 2) = 0 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

/-- The grid coordinates the body computes its mask offsets from. -/
theorem coords_facts : ∀ t : Fin cfg0.N, ((grid0.coords t) 1).val = t.val / 8 % 4 ∧ ((grid0.coords t) 2).val = t.val % 8 :=
  (by decide +kernel : ∀ t : Fin grid0.N, _)

/-- The mask array the region finds: the block mask as numbers. -/
theorem entry_mask (c : Dev nD) : (V m c main_v0 : Vec Ideal S256x256 .f32) = maskNum m c := by
  dsimp only [Gen.V, Gen.hostOps0]; after_results

/-- The bias the region finds: the bias vector as one row. -/
theorem entry_bias (c : Dev nD) :
    (V m c main_v1 : Vec Ideal S1x4096 .f32) = shapeCast S1x4096 (biasVec m c) shapeCasts_S4096_S1x4096 := by
  dsimp only [Gen.V, Gen.hostOps0]; after_results; rfl

/-- The token block at point `t`. -/
theorem tokens_block (c : Dev nD) (t : Fin cfg0.N) (r : Fin 1024) (k : Fin 512) :
    (iblk m c 0 t : Vec Ideal S1024x512 .f32) (ix2 r k)
      = at2 (tokens m c) (t.val / 32 * 1024 + r.val) (t.val % 8 * 512 + k.val) := by
  obtain ⟨e0, e1, -⟩ := index_facts t
  unfold iblk
  rw [View.read_apply]
  show V m c main_arg0 _ = _
  refine (congrFun (V_main_arg0 m c) _).trans ?_
  refine eq_at2 (tokens m c) _ _ _ ?_ ?_
  · show win0_0.index t 0 * 1024 + 1 * r.val = _; rw [e0]; omega
  · show win0_0.index t 1 * 512 + 1 * k.val = _; rw [e1]; omega

/-- The weight block at point `t`. -/
theorem weight_block (c : Dev nD) (t : Fin cfg0.N) (s : Fin 1024) (k : Fin 512) :
    (iblk m c 1 t : Vec Ideal S1024x512 .f32) (ix2 s k)
      = at2 (weight m c) (t.val / 8 % 4 * 1024 + s.val) (t.val % 8 * 512 + k.val) := by
  obtain ⟨-, -, e0, e1, -⟩ := index_facts t
  unfold iblk
  rw [View.read_apply]
  show V m c main_arg1 _ = _
  refine (congrFun (V_main_arg1 m c) _).trans ?_
  refine eq_at2 (weight m c) _ _ _ ?_ ?_
  · show win0_1.index t 0 * 1024 + 1 * s.val = _; rw [e0]; omega
  · show win0_1.index t 1 * 512 + 1 * k.val = _; rw [e1]; omega

/-- The mask tile the body takes at point `t`. -/
theorem mask_tile (c : Dev nD) (t : Fin cfg0.N) (a : Fin 64) (b : Fin 32) :
    maskTile (grid0.coords t) (iblk m c 2 t : Vec Ideal S256x256 .f32) (ix2 a b)
      = at2 (maskNum m c) (t.val / 8 % 4 * 64 + a.val) (t.val % 8 * 32 + b.val) := by
  obtain ⟨-, -, -, -, e0, e1, -⟩ := index_facts t
  obtain ⟨k1, k2⟩ := coords_facts t
  have hoff := k0_off1_eq (grid0.coords t)
  show (iblk m c 2 t : Vec Ideal S256x256 .f32) ((Rect.unit (s := S256x256) (k0_off1 (grid0.coords t)) S64x32.size (k0_off1_inb (grid0.coords t))).idx (ix2 a b)) = _
  unfold iblk
  rw [View.read_apply]
  show V m c main_v0 _ = _
  refine (congrFun (entry_mask m c) _).trans ?_
  refine eq_at2 (maskNum m c) _ _ _ ?_ ?_
  · show win0_2.index t 0 * 256 + 1 * (k0_off1 (grid0.coords t) 0 + 1 * a.val) = _
    rw [e0, hoff]
    show 0 * 256 + 1 * (64 * ((grid0.coords t) 1).val + 1 * a.val) = _
    rw [k1]; omega
  · show win0_2.index t 1 * 256 + 1 * (k0_off1 (grid0.coords t) 1 + 1 * b.val) = _
    rw [e1, hoff]
    show 0 * 256 + 1 * (32 * ((grid0.coords t) 2).val + 1 * b.val) = _
    rw [k2]; omega

/-- The bias block at point `t`. -/
theorem bias_block (c : Dev nD) (t : Fin cfg0.N) (s : Fin 1024) :
    (iblk m c 3 t : Vec Ideal S1x1024 .f32) (ix2 (0 : Fin 1) s) = at1 (biasVec m c) (t.val / 8 % 4 * 1024 + s.val) := by
  obtain ⟨-, -, -, -, -, -, e0, e1, -⟩ := index_facts t
  have hs := s.isLt
  have ht : t.val < 256 := lt_of_lt_of_eq t.isLt (show cfg0.N = 256 from N_0)
  unfold iblk
  rw [View.read_apply]
  show V m c main_v1 _ = _
  refine (congrFun (entry_bias m c) _).trans ?_
  refine (shapeCast_apply (biasVec m c) shapeCasts_S4096_S1x4096 _ (ix1 (⟨t.val / 8 % 4 * 1024 + s.val, by omega⟩ : Fin 4096)) ?_).trans ?_
  · rw [Shape.rowMajor_val_one, Shape.rowMajor_val_two]
    show t.val / 8 % 4 * 1024 + s.val = (win0_3.index t 0 * 1 + 1 * 0) * 4096 + (win0_3.index t 1 * 1024 + 1 * s.val)
    rw [e0, e1]; omega
  · exact (at1_ix1 (biasVec m c) (⟨t.val / 8 % 4 * 1024 + s.val, by omega⟩ : Fin 4096)).symm

end Cert.KernelIdeal.Blocks

end
-- ==== Proof.RunningTotal.lean ====
/-
  The running total over one run of 8 grid points, and the output block the run's last point stores.

  Point number n adds to the running total, at entry (r, s), the sum over the 512 positions of its stretch of the scaled
  product — written below as `addend n`, a function of the point's NUMBER alone: token row 1024·(n / 32) + r, weight row
  1024·((n / 8) % 4) + s, positions 512·(n % 8) …. A run starts at a multiple of 8, where the total is cleared first; so
  after the point at offset j of its run the total is zero plus the addends of the run's points 0 … j, and the last point
  (offset 7) stores that total plus the bias.
-/
import proofs.«124412_j77730318123392_1_alg».proof.Proof.Gen.KernelIdeal.Value
import proofs.«124412_j77730318123392_1_alg».proof.Proof.CasePieces
import proofs.«124412_j77730318123392_1_alg».proof.Proof.BodyAtEntry
import proofs.«124412_j77730318123392_1_alg».proof.Proof.BlockReads
import proofs.«124412_j77730318123392_1_alg».proof.Proof.Spec
import Idealize.ShloMosaic.Lib.Pipeline.Value
import Idealize.ShloMosaic.Lib.ValueIdx

noncomputable section

namespace Cert.KernelIdeal.Total

open Cert.KernelIdeal Cert.KernelIdeal.Gen Cert.KernelIdeal.Pieces Cert.KernelIdeal.BodyValue Cert.KernelIdeal.Blocks
open BlockMaskedLinear
open Idealize.ShloMosaic Idealize.ShloMosaic.TcCoe Idealize.ShloMosaic.ValueIdx Idealize.SL.Sem

variable (m : (ℓ : Loc nD τ sig) → Buf (Elt Ideal) ℓ)

/-- What point number `n` adds to the running total at entry `j` of the [1024, 1024] block. -/
def addend (c : Dev nD) (n : ℕ) : S1024x1024.Idx → EReal := fun j =>
  ∑ k : Fin 512, term (tokens m c) (weight m c) (maskNum m c)
    (n / 32 * 1024 + (j 0).val) (n / 8 % 4 * 1024 + (j 1).val) (n % 8 * 512 + k.val)

/-- One accumulation step at point `t`, over any previous total. -/
theorem step_apply (c : Dev nD) (t : Fin cfg0.N) (acc : Vec Ideal S1024x1024 .f32) (j : S1024x1024.Idx) :
    k0_pay2 (F := Ideal) (maskTile (grid0.coords t) (iblk m c 2 t)) (iblk m c 1 t) (iblk m c 0 t) acc j
      = acc j + addend m c t.val j := by
  obtain ⟨r, s, rfl⟩ : ∃ (r s : Fin 1024), j = ix2 r s := ⟨j 0, j 1, eq_ix2 j⟩
  refine (accumulate_apply (maskTile (grid0.coords t) (iblk m c 2 t)) (iblk m c 1 t) (iblk m c 0 t) acc r s).trans ?_
  refine congrArg (acc (ix2 r s) + ·) ?_
  refine Finset.sum_congr rfl fun k _ => ?_
  have hs := s.isLt
  have hk := k.isLt
  have h1 : (t.val / 8 % 4 * 1024 + s.val) / 16 = t.val / 8 % 4 * 64 + s.val / 16 := by omega
  have h2 : (t.val % 8 * 512 + k.val) / 16 = t.val % 8 * 32 + k.val / 16 := by omega
  refine (congrArg₂ (fun a b : EReal => a * b) (tokens_block m c t r k)
    (congrArg₂ (fun a b : EReal => a * b) (weight_block m c t s k)
      (congrArg (fun a : EReal => 1 + a) (mask_tile m c t (row16 s) (col16 k))))).trans ?_
  show _ = at2 (tokens m c) (t.val / 32 * 1024 + r.val) (t.val % 8 * 512 + k.val)
    * (at2 (weight m c) (t.val / 8 % 4 * 1024 + s.val) (t.val % 8 * 512 + k.val)
      * (1 + at2 (maskNum m c) ((t.val / 8 % 4 * 1024 + s.val) / 16) ((t.val % 8 * 512 + k.val) / 16)))
  rw [h1, h2]

/-- The first point of a run leaves zero plus its addend; -/
theorem run_start (c : Dev nD) (n : ℕ) (hb : n < cfg0.N) (h0 : n % 8 = 0) (acc : Vec Ideal S1024x1024 .f32) (i : S1024x1024.Idx) :
    Value.scAt0_0 m c n hb acc i = 0 + addend m c n i := by
  have h1 : ¬n % 8 = 7 := by omega
  unfold Value.scAt0_0
  rw [dif_pos h0, dif_neg h1]
  refine (congrFun (total_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) i).trans ?_
  refine (step_apply m c (⟨n, hb⟩ : Fin cfg0.N) (k0_pay1 (F := Ideal)) i).trans ?_
  rw [zeroFill_apply]

/-- every later point adds its addend to what the point before left. -/
theorem run_step (c : Dev nD) (n : ℕ) (hb : n < cfg0.N) (h0 : ¬n % 8 = 0) (acc : Vec Ideal S1024x1024 .f32) (i : S1024x1024.Idx) :
    Value.scAt0_0 m c n hb acc i = acc i + addend m c n i := by
  unfold Value.scAt0_0
  rw [dif_neg h0]
  by_cases h1 : n % 8 = 7
  · rw [dif_pos h1]
    refine (congrFun (total_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) i).trans ?_
    exact step_apply m c (⟨n, hb⟩ : Fin cfg0.N) acc i
  · rw [dif_neg h1]
    refine (congrFun (total_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) i).trans ?_
    exact step_apply m c (⟨n, hb⟩ : Fin cfg0.N) acc i

/-- THE RUNNING TOTAL after point `t`: zero plus the addends of its run's points up to `t`. -/
theorem total_after (c : Dev nD) (t : Fin cfg0.N) (i : S1024x1024.Idx) :
    (outsAt0 m c t.val t.isLt).2 i = 0 + ∑ s ∈ Finset.range (t.val % 8 + 1), addend m c (8 * (t.val / 8) + s) i := by
  have ht : t.val < 256 := lt_of_lt_of_eq t.isLt (show cfg0.N = 256 from N_0)
  rw [Value.soutsAt0_0_eq m c t]
  exact Pipeline.accAt_add_apply (fun n h => Value.scAt0_0 m c n h (VS0_0.read (Elt Ideal) VS0_0.junk)) (Value.scAt0_0 m c)
    (fun _ => 0) (addend m c) (8 * (t.val / 8)) 7
    (fun h i => run_start m c _ h (by omega) _ i)
    (fun n h acc i hlt hle => run_step m c n h (by omega) acc i)
    (t.val % 8) (by omega) _ i

/-- THE OUTPUT BLOCK a run's last point stores: the whole run's total plus the bias. -/
theorem output_after (c : Dev nD) (t : Fin cfg0.N) (h7 : t.val % 8 = 7) (j : S1024x1024.Idx) :
    (outsAt0 m c t.val t.isLt).1 j
      = (0 + ∑ s ∈ Finset.range 8, addend m c (8 * (t.val / 8) + s) j) + at1 (biasVec m c) (t.val / 8 % 4 * 1024 + (j 1).val) := by
  have h0 : ¬t.val % 8 = 0 := by omega
  obtain ⟨r, s, rfl⟩ : ∃ (r s : Fin 1024), j = ix2 r s := ⟨j 0, j 1, eq_ix2 j⟩
  have e2 : (outsAt0 m c t.val t.isLt).2
      = k0_pay2 (F := Ideal) (maskTile (grid0.coords t) (iblk m c 2 t)) (iblk m c 1 t) (iblk m c 0 t)
          (outsAt0 m c (t.val - 1) (Nat.lt_of_le_of_lt (Nat.sub_le _ _) t.isLt)).2 := by
    rw [outsAt0_C m c t h0 h7]
    dsimp only
    exact total_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2
  have e1 : (outsAt0 m c t.val t.isLt).1
      = k0_pay3 (F := Ideal) (outsAt0 m c t.val t.isLt).2 (iblk m c 3 t) := by
    rw [e2, outsAt0_C m c t h0 h7]
    dsimp only
    exact output_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (iblk m c 0 t) (iblk m c 1 t) (iblk m c 2 t) (iblk m c 3 t) (outsAt0 m c (t.val - 1) (Nat.lt_of_le_of_lt (Nat.sub_le _ _) t.isLt)).2
  refine (congrFun e1 (ix2 r s)).trans ?_
  refine (addBias_apply (outsAt0 m c t.val t.isLt).2 (iblk m c 3 t) r s).trans ?_
  rw [total_after m c t (ix2 r s), h7, bias_block m c t s]

end Cert.KernelIdeal.Total

end
-- ==== Proof.FinalArray.lean ====
/-
  The result array after the run.

  Only the last point of each run of 8 writes its output block back, to rows 1024·(t / 32) … and columns
  1024·((t / 8) % 4) … of the [8192, 4096] result; what it writes is the run's total plus the bias, which at array entry
  (p, q) is `result` of the argument arrays: the run's 8 addends are the 8 stretches of row p against row q. The 32 blocks
  written tile the array — entry (p, q) lies in the block of point 32·(p / 1024) + 8·(q / 1024) + 7 — so the array ends
  holding `result` everywhere.
-/
import proofs.«124412_j77730318123392_1_alg».proof.Proof.Gen.KernelIdeal.Value
import proofs.«124412_j77730318123392_1_alg».proof.Proof.RunningTotal
import Idealize.ShloMosaic.Lib.Pipeline.Value
import Idealize.ShloMosaic.Lib.ValueIdx

noncomputable section

namespace Cert.KernelIdeal.Final

open Cert.KernelIdeal Cert.KernelIdeal.Gen Cert.KernelIdeal.Blocks Cert.KernelIdeal.Total
open BlockMaskedLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- `result` of core `c`'s argument arrays. -/
abbrev resultOn (c : Dev nD) : Vec Ideal S8192x4096 .f32 :=
  result (tokens m c) (weight m c) (biasVec m c) (maskNum m c)

/-- An entry of the result array is in point `t`'s output block iff each coordinate is in the block's range. -/
theorem mem_block (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v2).slice (win0_4.rect t)).set ↔ _
  rw [View.set_slice_whole, Rect.mem_set_unit]
  exact Iff.rfl

/-- What a writing point writes back is its block of `result`. -/
theorem flushed_eq (c : Dev nD) (t : Fin cfg0.N) (hf : (cfg0.win 4).flush t = true) :
    (dats m 0 c).flushed 4 t = ((cfg0.win 4).blk t).view.read (Elt Ideal) (resultOn m c) := by
  have h7 : t.val % 8 = 7 := (flush0_4 t).mp hf
  obtain ⟨-, -, -, -, -, -, -, -, e0, e1⟩ := index_facts t
  rw [Value.flushed4]
  funext y
  rw [View.read_apply]
  show (outsAt0 m c t.val t.isLt).1 y = resultOn m c (((cfg0.win 4).blk t).view.emb y)
  rw [output_after m c t h7 y]
  have hp : ((((cfg0.win 4).blk t).view.emb y) 0).val = t.val / 32 * 1024 + (y 0).val := by
    show win0_4.index t 0 * 1024 + 1 * (y 0).val = _; rw [e0]; omega
  have hq : ((((cfg0.win 4).blk t).view.emb y) 1).val = t.val / 8 % 4 * 1024 + (y 1).val := by
    show win0_4.index t 1 * 1024 + 1 * (y 1).val = _; rw [e1]; omega
  show _ = (0 + ∑ n ∈ Finset.range 8, ∑ k : Fin 512, term (tokens m c) (weight m c) (maskNum m c)
      ((((cfg0.win 4).blk t).view.emb y) 0).val ((((cfg0.win 4).blk t).view.emb y) 1).val (n * 512 + k.val))
    + at1 (biasVec m c) ((((cfg0.win 4).blk t).view.emb y) 1).val
  rw [hp, hq]
  refine congrArg₂ (· + ·) (congrArg (0 + ·) (Finset.sum_congr rfl fun s hs => ?_)) rfl
  have hs' : s < 8 := Finset.mem_range.mp hs
  have a1 : (8 * (t.val / 8) + s) / 32 = t.val / 32 := by omega
  have a2 : (8 * (t.val / 8) + s) / 8 % 4 = t.val / 8 % 4 := by omega
  have a3 : (8 * (t.val / 8) + s) % 8 = s := by omega
  show (∑ k : Fin 512, term (tokens m c) (weight m c) (maskNum m c)
      ((8 * (t.val / 8) + s) / 32 * 1024 + (y 0).val) ((8 * (t.val / 8) + s) / 8 % 4 * 1024 + (y 1).val)
      ((8 * (t.val / 8) + s) % 8 * 512 + k.val)) = _
  rw [a1, a2, a3]

/-- Every entry of the result array is in some writing point's block. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 256 := N_0
  have hlt : (i 0).val / 1024 * 32 + (i 1).val / 1024 * 8 + 7 < cfg0.N := by rw [hN]; omega
  obtain ⟨-, -, -, -, -, -, -, -, e0, e1⟩ := index_facts ⟨(i 0).val / 1024 * 32 + (i 1).val / 1024 * 8 + 7, hlt⟩
  refine ⟨⟨(i 0).val / 1024 * 32 + (i 1).val / 1024 * 8 + 7, hlt⟩, (flush0_4 _).mpr (by show ((i 0).val / 1024 * 32 + (i 1).val / 1024 * 8 + 7) % 8 = 7; omega), ?_⟩
  rw [mem_block]
  intro a
  match a with
  | ⟨0, _⟩ =>
    show win0_4.index ⟨(i 0).val / 1024 * 32 + (i 1).val / 1024 * 8 + 7, hlt⟩ 0 * 1024 ≤ (i 0).val
      ∧ (i 0).val < win0_4.index ⟨(i 0).val / 1024 * 32 + (i 1).val / 1024 * 8 + 7, hlt⟩ 0 * 1024 + 1024
    rw [e0]
    show ((i 0).val / 1024 * 32 + (i 1).val / 1024 * 8 + 7) / 32 * 1024 ≤ (i 0).val
      ∧ (i 0).val < ((i 0).val / 1024 * 32 + (i 1).val / 1024 * 8 + 7) / 32 * 1024 + 1024
    omega
  | ⟨1, _⟩ =>
    show win0_4.index ⟨(i 0).val / 1024 * 32 + (i 1).val / 1024 * 8 + 7, hlt⟩ 1 * 1024 ≤ (i 1).val
      ∧ (i 1).val < win0_4.index ⟨(i 0).val / 1024 * 32 + (i 1).val / 1024 * 8 + 7, hlt⟩ 1 * 1024 + 1024
    rw [e1]
    show ((i 0).val / 1024 * 32 + (i 1).val / 1024 * 8 + 7) / 8 % 4 * 1024 ≤ (i 1).val
      ∧ (i 1).val < ((i 0).val / 1024 * 32 + (i 1).val / 1024 * 8 + 7) / 8 % 4 * 1024 + 1024
    omega

/-- THE RESULT ARRAY after the run is `result` of the argument arrays. -/
theorem final (c : Dev nD) : (dats m 0 c).arrAt 4 cfg0.N = resultOn m c :=
  (dats m 0 c).arrAt_eq_of_cover 4 (resultOn m c) (flushed_eq m c) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v2) = resultOn m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.ReferenceValue.lean ====
/-
  The reference's result is the same function of the argument arrays.

  The reference repeats the block mask 16 times along each axis — entry (q, i) of the dense mask is the block mask's entry
  (q / 16, i / 16) —, converts it to numbers, multiplies the weight by it, contracts the tokens against the masked weight and
  against the plain weight, adds the bias (broadcast along the rows) to the plain product and adds the two. Read entry by
  entry this is the "two products" arrangement of `result`; the mask's numbers are nonnegative, which is all the split
  of one entry asks.
-/
import proofs.«124412_j77730318123392_1_alg».proof.Proof.Gen.ReferenceIdeal.Read
import proofs.«124412_j77730318123392_1_alg».proof.Proof.Spec
import Idealize.ShloMosaic.Lib.ValueIdx

noncomputable section

namespace Cert.ReferenceIdeal.RefValue

open Cert.ReferenceIdeal Cert.ReferenceIdeal.Gen Cert.ReferenceIdeal.Read BlockMaskedLinear
open Idealize.ShloMosaic Idealize.ShloMosaic.ValueIdx

/-- The dense mask's entry (q, i), as the reference builds it, is the block mask's entry (q / 16, i / 16). -/
theorem denseMask_apply (x3 : IVec S256x256 1) (q i : Fin 4096) :
    (uitofp (F := Ideal) .f32 (val_main_v3 (F := Ideal) x3) : FVec Ideal S4096x4096 .f32) (ix2 q i)
      = at2 (uitofp (F := Ideal) (s := S256x256) (w := 1) .f32 x3 : FVec Ideal S256x256 .f32) (q.val / 16) (i.val / 16) := by
  have hq := q.isLt
  have hi := i.isLt
  show FloatOps.uitofp (F := Ideal) .f32 (val_main_v3 (F := Ideal) x3 (ix2 q i)) = _
  rw [val_main_v3_apply, val_main_v2_apply, val_main_v1_apply, val_main_v0_apply]
  refine eq_at2 (uitofp (F := Ideal) (s := S256x256) (w := 1) .f32 x3 : FVec Ideal S256x256 .f32) _ _ _ ?_ ?_
  · show ((q.val * 4096 + i.val) / 4096 * 256 + (q.val * 4096 + i.val) / 16 % 256) / 4096 = q.val / 16
    omega
  · show ((q.val * 4096 + i.val) / 4096 * 256 + (q.val * 4096 + i.val) / 16 % 256) % 256 = i.val / 16
    omega

/-- THE REFERENCE'S RESULT is `result` of its arguments, the mask as numbers. -/
theorem reference_eq (x0 : Vec Ideal S8192x4096 .f32) (x1 : Vec Ideal S4096x4096 .f32) (x2 : Vec Ideal S4096 .f32)
    (x3 : IVec S256x256 1) :
    val_main_v11 (F := Ideal) x0 x1 x2 x3
      = result x0 x1 x2 (uitofp (F := Ideal) (s := S256x256) (w := 1) .f32 x3 : FVec Ideal S256x256 .f32) := by
  funext j
  obtain ⟨p, q, rfl⟩ : ∃ (p : Fin 8192) (q : Fin 4096), j = ix2 p q := ⟨j 0, j 1, eq_ix2 j⟩
  have hnn : ∀ y, (0 : EReal) ≤ (uitofp (F := Ideal) (s := S256x256) (w := 1) .f32 x3 : FVec Ideal S256x256 .f32) y := fun y => by
    show (0 : EReal) ≤ (((x3 y).toNat : ℝ) : EReal)
    exact_mod_cast Nat.cast_nonneg _
  rw [result_eq_two_products x0 x1 x2 _ hnn (ix2 p q)]
  rw [val_main_v11_apply, val_main_v6_apply, val_main_v10_apply, val_main_v7_apply, val_main_v9_apply, val_main_v8_apply]
  show (∑ k : Fin 4096, x0 (lidx_main_v6 (ix2 p q) k) * val_main_v5 (F := Ideal) x1 x3 (ridx_main_v6 (ix2 p q) k))
      + ((∑ k : Fin 4096, x0 (lidx_main_v7 (ix2 p q) k) * x1 (ridx_main_v7 (ix2 p q) k)) + x2 (idx_main_v8 (idx_main_v9 (ix2 p q)))) = _
  refine congrArg₂ (· + ·) (Finset.sum_congr rfl fun k _ => ?_)
    (congrArg₂ (· + ·) (Finset.sum_congr rfl fun k _ => ?_) ?_)
  · refine congrArg₂ (· * ·) (eq_at2 x0 _ _ _ rfl rfl) ?_
    show x1 (ridx_main_v6 (ix2 p q) k) * (uitofp (F := Ideal) .f32 (val_main_v3 (F := Ideal) x3) : FVec Ideal S4096x4096 .f32) (ridx_main_v6 (ix2 p q) k) = _
    refine congrArg₂ (· * ·) (eq_at2 x1 _ _ _ rfl rfl) ?_
    exact (congrArg _ (eq_ix2 (ridx_main_v6 (ix2 p q) k))).trans (denseMask_apply x3 q k)
  · exact congrArg₂ (· * ·) (eq_at2 x0 _ _ _ rfl rfl) (eq_at2 x1 _ _ _ rfl rfl)
  · exact eq_at1 x2 _ _ rfl

end Cert.ReferenceIdeal.RefValue

end
-- ==== Proof.lean ====
/-
  The certificate of a linear layer with a block-sparse second path.

  The kernel computes x · (w ⊙ (1 + M))ᵀ + b in one pass: a [1024, 1024] running total per output block, cleared at the
  first of 8 stretches of the contraction axis, to which each stretch adds the product of the token block with the weight
  block scaled entrywise by 1 + μ (μ the block mask's entry for the weight entry's 16 × 16 block, as a number), and to
  which the bias row is added when the last stretch stores the block. The reference computes x · (w ⊙ M)ᵀ + (x · wᵀ + b).

  On the extended reals the two agree entry by entry with no finiteness hypothesis: μ is nonnegative, a sum of two
  nonnegative factors distributes over any extended real, and addition is commutative and associative — so the claim's
  precondition is never opened. The parts: the algebra (Proof/SplitLaw.lean), the result as one function of the argument
  arrays and its two arrangements (Proof/Spec.lean), the body's stored values read at an entry (Proof/BodyAtEntry.lean),
  what each control case leaves (Proof/CasePieces.lean), the windows' blocks as reads of the arguments
  (Proof/BlockReads.lean), the running total over a run of 8 points (Proof/RunningTotal.lean), the result array after the
  run (Proof/FinalArray.lean), and the reference's result as the same function (Proof/ReferenceValue.lean).
-/
import proofs.«124412_j77730318123392_1_alg».proof.Defs
import proofs.«124412_j77730318123392_1_alg».proof.Proof.Gen.Kernel
import proofs.«124412_j77730318123392_1_alg».proof.Proof.Gen.Kernel.Frame
import proofs.«124412_j77730318123392_1_alg».proof.Proof.Gen.KernelIdeal
import proofs.«124412_j77730318123392_1_alg».proof.Proof.Gen.KernelIdeal.Frame
import proofs.«124412_j77730318123392_1_alg».proof.Proof.Gen.KernelIdeal.Value
import proofs.«124412_j77730318123392_1_alg».proof.Proof.Gen.ReferenceIdeal
import proofs.«124412_j77730318123392_1_alg».proof.Proof.Gen.ReferenceIdeal.Run
import proofs.«124412_j77730318123392_1_alg».proof.Proof.Gen.ReferenceIdeal.Read
import proofs.«124412_j77730318123392_1_alg».proof.Proof.Gen.Pre_finite_inputs
import proofs.«124412_j77730318123392_1_alg».proof.Proof.FinalArray
import proofs.«124412_j77730318123392_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at `result` of the argument arrays they agree on. -/
theorem algebraic : Cert.algebraic_KernelIdeal_ReferenceIdeal := by
  intro m ρ m' ρ' _ hagree
  refine ⟨fun c => Cert.KernelIdeal.Final.resultOn m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
